-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x1024 : Shape := ⟨2, ![32768, 1024]⟩
abbrev S64x1024x2048 : Shape := ⟨3, ![64, 1024, 2048]⟩
abbrev S64x2048x1024 : Shape := ⟨3, ![64, 2048, 1024]⟩
abbrev S_ : Shape := ⟨0, ![]⟩

class Facts : Prop where
  bcast_S_S32768x1024 : S_.BroadcastsInDim S32768x1024 (![] : Fin 0 → Fin S32768x1024.rank)
  reducesTo_S32768x1024_S_d0_1 : S32768x1024.ReducesTo [0, 1] S_
  h_S_ : 0 < S_.numel
  bcast_S_S64x1024x2048 : S_.BroadcastsInDim S64x1024x2048 (![] : Fin 0 → Fin S64x1024x2048.rank)
  reducesTo_S64x1024x2048_S_d0_1_2 : S64x1024x2048.ReducesTo [0, 1, 2] S_
  bcast_S_S64x2048x1024 : S_.BroadcastsInDim S64x2048x1024 (![] : Fin 0 → Fin S64x2048x1024.rank)
  reducesTo_S64x2048x1024_S_d0_1_2 : S64x2048x1024.ReducesTo [0, 1, 2] S_

variable [Facts]

def fn {F : FTy → Type} [FloatOps F] (main_arg0 : FVec F S32768x1024 .f32) (main_arg1 : FVec F S64x1024x2048 .f32) (main_arg2 : FVec F S64x2048x1024 .f32) : IVec S_ 1 :=
  let main_v0 : FVec F S32768x1024 .f32 := Host.absf main_arg0
  let main_cst : FVec F S_ .f32 := constant S_ .f32 0x7F800000#32
  let main_v1 : FVec F S32768x1024 .f32 := broadcastInDim S32768x1024 ![] bcast_S_S32768x1024 main_cst
  let main_v2 : IVec S32768x1024 1 := cmpf .olt main_v0 main_v1
  let main_c : IVec S_ 1 := constantI S_ 1 1#1
  let main_v3 : IVec S_ 1 := (fun x v => Host.reduce IntOp.andi x v reducesTo_S32768x1024_S_d0_1 h_S_) main_v2 main_c
  let main_v4 : FVec F S64x1024x2048 .f32 := Host.absf main_arg1
  let main_cst_0 : FVec F S_ .f32 := constant S_ .f32 0x7F800000#32
  let main_v5 : FVec F S64x1024x2048 .f32 := broadcastInDim S64x1024x2048 ![] bcast_S_S64x1024x2048 main_cst_0
  let main_v6 : IVec S64x1024x2048 1 := cmpf .olt main_v4 main_v5
  let main_c_1 : IVec S_ 1 := constantI S_ 1 1#1
  let main_v7 : IVec S_ 1 := (fun x v => Host.reduce IntOp.andi x v reducesTo_S64x1024x2048_S_d0_1_2 h_S_) main_v6 main_c_1
  let main_v8 : IVec S_ 1 := andi main_v3 main_v7
  let main_v9 : FVec F S64x2048x1024 .f32 := Host.absf main_arg2
  let main_cst_2 : FVec F S_ .f32 := constant S_ .f32 0x7F800000#32
  let main_v10 : FVec F S64x2048x1024 .f32 := broadcastInDim S64x2048x1024 ![] bcast_S_S64x2048x1024 main_cst_2
  let main_v11 : IVec S64x2048x1024 1 := cmpf .olt main_v9 main_v10
  let main_c_3 : IVec S_ 1 := constantI S_ 1 1#1
  let main_v12 : IVec S_ 1 := (fun x v => Host.reduce IntOp.andi x v reducesTo_S64x2048x1024_S_d0_1_2 h_S_) main_v11 main_c_3
  let main_v13 : IVec S_ 1 := andi main_v8 main_v12
  main_v13
-- ==== Kernel.lean ====
abbrev S32768x1024 : Shape := ⟨2, ![32768, 1024]⟩
abbrev S64x1024x2048 : Shape := ⟨3, ![64, 1024, 2048]⟩
abbrev S64x2048x1024 : Shape := ⟨3, ![64, 2048, 1024]⟩
abbrev S64x512x1024 : Shape := ⟨3, ![64, 512, 1024]⟩
abbrev S1x256x1024 : Shape := ⟨3, ![1, 256, 1024]⟩
abbrev S1x1024x2048 : Shape := ⟨3, ![1, 1024, 2048]⟩
abbrev S1x2048x1024 : Shape := ⟨3, ![1, 2048, 1024]⟩
abbrev S256x1024 : Shape := ⟨2, ![256, 1024]⟩
abbrev S1024x2048 : Shape := ⟨2, ![1024, 2048]⟩
abbrev S256x2048 : Shape := ⟨2, ![256, 2048]⟩
abbrev S2048x1024 : Shape := ⟨2, ![2048, 1024]⟩

abbrev nBuf : Space → Nat
  | .hbm => 6
  | .vmem => 8
  | .smem => 0
  | _ => 0

abbrev bufTy : (tb : Table) → Fin (tcTables nBuf tb) → BufTy
  | .hbm, ⟨0, _⟩ => ⟨S32768x1024, .f32⟩
  | .hbm, ⟨1, _⟩ => ⟨S64x1024x2048, .f32⟩
  | .hbm, ⟨2, _⟩ => ⟨S64x2048x1024, .f32⟩
  | .hbm, ⟨3, _⟩ => ⟨S64x512x1024, .f32⟩
  | .hbm, ⟨4, _⟩ => ⟨S64x512x1024, .f32⟩
  | .hbm, ⟨5, _⟩ => ⟨S32768x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x1024x2048, .f32⟩
  | .local _ .vmem, ⟨3, _⟩ => ⟨S1x1024x2048, .f32⟩
  | .local _ .vmem, ⟨4, _⟩ => ⟨S1x2048x1024, .f32⟩
  | .local _ .vmem, ⟨5, _⟩ => ⟨S1x2048x1024, .f32⟩
  | .local _ .vmem, ⟨6, _⟩ => ⟨S1x256x1024, .f32⟩
  | .local _ .vmem, ⟨7, _⟩ => ⟨S1x256x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![64, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  shapeCasts_S32768x1024_S64x512x1024 : S32768x1024.ShapeCasts S64x512x1024
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  bitsLt_bf16_f32 : FTy.bits .bf16 < FTy.bits .f32
  inb_S1x1024x2048_S1x1024x2048_0_0_0 : ∀ a, (![0, 0, 0] : Fin 3 → Nat) a + S1x1024x2048.size a ≤ S1x1024x2048.size a
  h_S1x1024x2048 : 0 < S1x1024x2048.numel
  shapeCasts_S1x1024x2048_S1024x2048 : S1x1024x2048.ShapeCasts S1024x2048
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  shapeCasts_S256x1024_S1x256x1024 : S256x1024.ShapeCasts S1x256x1024
  shapeCasts_S64x512x1024_S32768x1024 : S64x512x1024.ShapeCasts S32768x1024
  dot_S256x1024_S1024x2048_S256x2048_1_0_0_1_n_n_wf : DotDims.WF S256x1024 S1024x2048 S256x2048 [1] [0] [0] [1] [] []
  dot_S256x2048_S2048x1024_S256x1024_1_0_0_1_n_n_wf : DotDims.WF S256x2048 S2048x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x1024.size a ≤ S64x512x1024.size a
  hwx0_0 : ∀ i : grid0.Coords, EltTy.bits .f32 = 32 ∨ (Rect.block (s := S64x512x1024) S1x256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x2048.size a ≤ S64x1024x2048.size a
  hwx0_1 : ∀ i : grid0.Coords, EltTy.bits .f32 = 32 ∨ (Rect.block (s := S64x1024x2048) S1x1024x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x1024.size a ≤ S64x2048x1024.size a
  hwx0_2 : ∀ i : grid0.Coords, EltTy.bits .f32 = 32 ∨ (Rect.block (s := S64x2048x1024) S1x2048x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x1024.size a ≤ S64x512x1024.size a
  hwx0_3 : ∀ i : grid0.Coords, EltTy.bits .f32 = 32 ∨ (Rect.block (s := S64x512x1024) S1x256x1024.size (cc0_transform_3 i) (hinb0_3 i)).WholeWords (EltTy.packing .f32)

variable [Facts₀]

def dot_S256x1024_S1024x2048_S256x2048_1_0_0_1_n_n : DotDims S256x1024 S1024x2048 S256x2048 where
  lhsContracting := [1]
  rhsContracting := [0]
  lhsNonContracting := [0]
  rhsNonContracting := [1]
  lhsBatch := []
  rhsBatch := []
  wf := dot_S256x1024_S1024x2048_S256x2048_1_0_0_1_n_n_wf
def dot_S256x2048_S2048x1024_S256x1024_1_0_0_1_n_n : DotDims S256x2048 S2048x1024 S256x1024 where
  lhsContracting := [1]
  rhsContracting := [0]
  lhsNonContracting := [0]
  rhsNonContracting := [1]
  lhsBatch := []
  rhsBatch := []
  wf := dot_S256x2048_S2048x1024_S256x1024_1_0_0_1_n_n_wf

abbrev win0_0 : Pipeline.Window sig grid0 :=
  Pipeline.Window.ofSpec (Memref.whole main_v0) S1x256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1024x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x2048x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x256x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S32768x1024 : Shape := ⟨2, ![32768, 1024]⟩
abbrev S64x1024x2048 : Shape := ⟨3, ![64, 1024, 2048]⟩
abbrev S64x2048x1024 : Shape := ⟨3, ![64, 2048, 1024]⟩
abbrev S64x512x1024 : Shape := ⟨3, ![64, 512, 1024]⟩
abbrev S64x512x2048 : Shape := ⟨3, ![64, 512, 2048]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S64x1024x2048, .f32⟩
  | .hbm, ⟨2, _⟩ => ⟨S64x2048x1024, .f32⟩
  | .hbm, ⟨3, _⟩ => ⟨S64x512x1024, .f32⟩
  | .hbm, ⟨4, _⟩ => ⟨S64x512x2048, .f32⟩
  | .hbm, ⟨5, _⟩ => ⟨S64x512x2048, .f32⟩
  | .hbm, ⟨6, _⟩ => ⟨S64x512x2048, .f32⟩
  | .hbm, ⟨7, _⟩ => ⟨S_, .f32⟩
  | .hbm, ⟨8, _⟩ => ⟨S64x512x2048, .f32⟩
  | .hbm, ⟨9, _⟩ => ⟨S64x512x2048, .f32⟩
  | .hbm, ⟨10, _⟩ => ⟨S64x512x2048, .f32⟩
  | .hbm, ⟨11, _⟩ => ⟨S_, .f32⟩
  | .hbm, ⟨12, _⟩ => ⟨S64x512x2048, .f32⟩
  | .hbm, ⟨13, _⟩ => ⟨S64x512x2048, .f32⟩
  | .hbm, ⟨14, _⟩ => ⟨S64x512x2048, .f32⟩
  | .hbm, ⟨15, _⟩ => ⟨S_, .f32⟩
  | .hbm, ⟨16, _⟩ => ⟨S64x512x2048, .f32⟩
  | .hbm, ⟨17, _⟩ => ⟨S64x512x2048, .f32⟩
  | .hbm, ⟨18, _⟩ => ⟨S_, .f32⟩
  | .hbm, ⟨19, _⟩ => ⟨S64x512x2048, .f32⟩
  | .hbm, ⟨20, _⟩ => ⟨S64x512x2048, .f32⟩
  | .hbm, ⟨21, _⟩ => ⟨S64x512x2048, .f32⟩
  | .hbm, ⟨22, _⟩ => ⟨S64x512x1024, .f32⟩
  | .hbm, ⟨23, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]

class Facts₀ : Prop where
  shapeCasts_S32768x1024_S64x512x1024 : S32768x1024.ShapeCasts S64x512x1024
  bcast_S_S64x512x2048 : S_.BroadcastsInDim S64x512x2048 (![] : Fin 0 → Fin S64x512x2048.rank)
  shapeCasts_S64x512x1024_S32768x1024 : S64x512x1024.ShapeCasts S32768x1024
  dot_S64x512x1024_S64x1024x2048_S64x512x2048_2_1_1_2_0_0_wf : DotDims.WF S64x512x1024 S64x1024x2048 S64x512x2048 [2] [1] [1] [2] [0] [0]
  dot_S64x512x2048_S64x2048x1024_S64x512x1024_2_1_1_2_0_0_wf : DotDims.WF S64x512x2048 S64x2048x1024 S64x512x1024 [2] [1] [1] [2] [0] [0]

variable [Facts₀]

def dot_S64x512x1024_S64x1024x2048_S64x512x2048_2_1_1_2_0_0 : DotDims S64x512x1024 S64x1024x2048 S64x512x2048 where
  lhsContracting := [2]
  rhsContracting := [1]
  lhsNonContracting := [1]
  rhsNonContracting := [2]
  lhsBatch := [0]
  rhsBatch := [0]
  wf := dot_S64x512x1024_S64x1024x2048_S64x512x2048_2_1_1_2_0_0_wf
def dot_S64x512x2048_S64x2048x1024_S64x512x1024_2_1_1_2_0_0 : DotDims S64x512x2048 S64x2048x1024 S64x512x1024 where
  lhsContracting := [2]
  rhsContracting := [1]
  lhsNonContracting := [1]
  rhsNonContracting := [2]
  lhsBatch := [0]
  rhsBatch := [0]
  wf := dot_S64x512x2048_S64x2048x1024_S64x512x1024_2_1_1_2_0_0_wf

class Facts : Prop extends Facts₀ where

variable [Facts]
-- ==== Proof.LibRowwise.lean ====
/-
  Rank-2 vectors read row by row, at the extended reals, for any sizes.

    * a plain matrix product `[M, K] × [K, N]` into a zero accumulator, at `(p, q)`: `∑ₖ a(p, k) · b(k, q)`;
    * a sum over the lanes (axis 1) of an `[A, B]` vector, at row `p`: `∑ₖ v(p, k)`;
    * a maximum over the lanes, at row `p`: the fold of `max` from the starting word's value over `v(p, ·)`;
    * the cast of a length-`A` vector to a column `[A, 1]`, at `(p, u)`: the vector at `p`;
    * the broadcast of a column `[A, 1]` along the lanes to `[A, B]`, at `(p, q)`: the column at `(p, 0)`.

  A dimension-numbers record that contracts the left operand's axis 1 with the right operand's axis 0 and has no batch
  axes IS the plain record (`eq_plain`), so the product lemma serves every such record a program prints.
-/
import Idealize.ShloMosaic.PureOps.Ideal.Laws
import Idealize.ShloMosaic.Lib.ValueIdx
import Idealize.ShloMosaic.Lib.Pipeline.Value

noncomputable section

namespace Cert.Lib.Rowwise

open Idealize.ShloMosaic Idealize.ShloMosaic.ValueIdx

/-! ## The plain matrix product -/

section Dot

variable {M K N : Nat}

/-- A record over `[M, K]`, `[K, N]`, `[M, N]` whose six lists are the plain product's is the plain record. -/
theorem eq_plain (D : DotDims ⟨2, ![M, K]⟩ ⟨2, ![K, N]⟩ ⟨2, ![M, N]⟩) (h1 : D.lhsContracting = [1]) (h2 : D.rhsContracting = [0])
    (h3 : D.lhsNonContracting = [0]) (h4 : D.rhsNonContracting = [1]) (h5 : D.lhsBatch = []) (h6 : D.rhsBatch = []) :
    D = DotDims.plain M K N := by
  cases D
  simp only at h1 h2 h3 h4 h5 h6
  subst h1 h2 h3 h4 h5 h6
  rfl

theorem plain_lhs0 (j : (⟨2, ![M, N]⟩ : Shape).Idx) (q : (DotDims.plain M K N).contr.Idx) :
    ((DotDims.plain M K N).lhsIdx j q 0).val = (j 0).val := rfl
theorem plain_lhs1 (j : (⟨2, ![M, N]⟩ : Shape).Idx) (q : (DotDims.plain M K N).contr.Idx) :
    ((DotDims.plain M K N).lhsIdx j q 1).val = (q ⟨0, Nat.one_pos⟩).val := rfl
theorem plain_rhs0 (j : (⟨2, ![M, N]⟩ : Shape).Idx) (q : (DotDims.plain M K N).contr.Idx) :
    ((DotDims.plain M K N).rhsIdx j q 0).val = (q ⟨0, Nat.one_pos⟩).val := rfl
theorem plain_rhs1 (j : (⟨2, ![M, N]⟩ : Shape).Idx) (q : (DotDims.plain M K N).contr.Idx) :
    ((DotDims.plain M K N).rhsIdx j q 1).val = (j 1).val := rfl

/-- The plain product into the zero word, read at `(p, q)`: the sum over the contracted coordinate. -/
theorem plain_matmul_zero_apply {φ₁ φ₂ : FTy} (prec : Option ContractPrecision) (a : FVec Ideal ⟨2, ![M, K]⟩ φ₁)
    (b : FVec Ideal ⟨2, ![K, N]⟩ φ₂) (p : Fin M) (q : Fin N) :
    FloatOps.matmul (DotDims.plain M K N) prec a b (constant ⟨2, ![M, N]⟩ .f32 0x00000000#32) (ix2 p q)
      = ∑ k : Fin K, a (ix2 p k) * b (ix2 k q) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhs0 _ _
      | ⟨1, _⟩ => exact (plain_lhs1 _ _).trans hk)
  have er : (DotDims.plain M K N).rhsIdx (ix2 p q) ((contrEquiv1 (DotDims.plain M K N) K rfl rfl).symm k) = ix2 k q :=
    funext fun a => Fin.ext (by
      match a with
      | ⟨0, _⟩ => exact (plain_rhs0 _ _).trans hk
      | ⟨1, _⟩ => exact plain_rhs1 _ _)
  rw [el, er]

end Dot

/-! ## Lane reductions -/

section Lanes

variable {A B : Nat} {φ : FTy}

/-- Row `p` with lane `k` put back is `(p, k)`. -/
theorem lift_row (h : (⟨2, ![A, B]⟩ : Shape).Reduces [1] ⟨1, ![A]⟩) (p : Fin A) (k : Fin B) :
    h.lift (ix1 p) k = ix2 p k :=
  funext fun a => Fin.ext (by match a with | ⟨0, _⟩ => rfl | ⟨1, _⟩ => rfl)

/-- A lane sum at row `p`. -/
theorem laneSum_apply (src : FVec Ideal ⟨2, ![A, B]⟩ φ) (acc : BitVec φ.bits) (h : (⟨2, ![A, B]⟩ : Shape).Reduces [1] ⟨1, ![A]⟩)
    (hφ : FKind.Formats φ) (hacc : acc = FKind.add.neutral φ hφ) (p : Fin A) :
    multiReduction .add [1] ⟨1, ![A]⟩ src acc h hφ hacc (ix1 p) = ∑ k : Fin B, src (ix2 p k) := by
  rw [Ideal.multiReduction_add_single]
  exact Finset.sum_congr rfl fun k _ => congrArg src (lift_row h p k)

/-- A lane maximum at row `p`: the fold of `max` from the starting word's value. -/
theorem laneMax_apply (src : FVec Ideal ⟨2, ![A, B]⟩ φ) (acc : BitVec φ.bits) (h : (⟨2, ![A, B]⟩ : Shape).Reduces [1] ⟨1, ![A]⟩)
    (hφ : FKind.Formats φ) (hacc : acc = FKind.maximumf.neutral φ hφ) (p : Fin A) :
    multiReduction .maximumf [1] ⟨1, ![A]⟩ src acc h hφ hacc (ix1 p)
      = (Finset.univ : Finset (Fin B)).fold max (Ideal.ofBits φ acc) (fun k => src (ix2 p k)) := by
  rw [Ideal.multiReduction_maximumf_single]
  have e : (src ∘ h.lift (ix1 p)) = fun k => src (ix2 p k) := funext fun k => congrArg src (lift_row h p k)
  rw [e]
  rfl

end Lanes

/-! ## Columns -/

section Columns

variable {A B : Nat} {α : Type}

/-- A length-`A` vector cast to a column reads, at `(p, u)`, the vector at `p`. -/
theorem column_apply (v : (⟨1, ![A]⟩ : Shape).Idx → α) (h : (⟨1, ![A]⟩ : Shape).ShapeCasts ⟨2, ![A, 1]⟩) (p : Fin A) (u : Fin 1) :
    shapeCast ⟨2, ![A, 1]⟩ v h (ix2 p u) = v (ix1 p) := by
  refine shapeCast_apply v h (ix2 p u) (ix1 p) ?_
  rw [Shape.rowMajor_val_one, Shape.rowMajor_val_two]
  have hu : u.val = 0 := by omega
  show p.val = p.val * 1 + u.val
  omega

/-- A column broadcast along the lanes reads, at `(p, q)`, the column at `(p, 0)`. -/
theorem columnBroadcast_apply (v : (⟨2, ![A, 1]⟩ : Shape).Idx → α) (h : (⟨2, ![A, 1]⟩ : Shape).Broadcasts ⟨2, ![A, B]⟩)
    (hA : A ≠ 1) (p : Fin A) (q : Fin B) : broadcastTo ⟨2, ![A, B]⟩ v h (ix2 p q) = v (ix2 p 0) := by
  refine broadcastTo_apply v h (ix2 p q) (ix2 p 0) fun a => ?_
  match a with
  | ⟨0, _⟩ => exact (if_neg hA).symm
  | ⟨1, _⟩ => exact (if_pos rfl).symm

end Columns

end Cert.Lib.Rowwise

end
-- ==== Proof.Spec.lean ====
/-
  One expert's feed-forward block on the extended reals.

  Tokens are grouped in 64 chunks of 512 rows; chunk `e` is sent through expert `e`: a linear map [1024 → 2048], the
  tanh form of GELU, and a linear map [2048 → 1024]. With `X : [64, 512, 1024]` the grouped tokens and `A`, `B` the
  two weight stacks, the result at `(e, r, n)` is

      ∑ f, gelu (∑ d, X (e, r, d) · A (e, d, f)) · B (e, f, n).

  `tile` is the same expression on one token tile with the expert's two matrices, each carrying a leading unit axis.
  Also here: a vector with a leading unit axis read with that axis dropped, and put back.
-/
import Idealize.ShloMosaic.PureOps.Ideal.Laws
import Idealize.ShloMosaic.Lib.ValueIdx
import Idealize.ShloMosaic.Lib.Pipeline.Value

noncomputable section

namespace Cert.MoeFfn

open Idealize.ShloMosaic Idealize.ShloMosaic.ValueIdx

/-- GELU in its tanh form, `h · (½ · (1 + tanh (s · (h + c · h³))))`, with the three float constants at their binary
    values and the cube grouped as `h · (h · h)`. -/
def gelu (h : EReal) : EReal :=
  h * (Ideal.ofBits .f32 0x3F000000#32 * (Ideal.ofBits .f32 0x3F800000#32
    + Ideal.tanh (Ideal.ofBits .f32 0x3F4C422A#32 * (h + Ideal.ofBits .f32 0x3D372713#32 * (h * (h * h))))))

/-- The cube grouped the other way gives the same value: multiplication of extended reals is commutative. -/
theorem gelu_cube_left (h : EReal) :
    h * (Ideal.ofBits .f32 0x3F000000#32 * (Ideal.ofBits .f32 0x3F800000#32
      + Ideal.tanh (Ideal.ofBits .f32 0x3F4C422A#32 * (h + Ideal.ofBits .f32 0x3D372713#32 * (h * h * h))))) = gelu h := by
  unfold gelu
  rw [mul_comm (h * h) h]

/-- The block on the grouped tokens, at expert `e`, row `r` of its chunk and output feature `n`. -/
def ffnAt (X : (⟨3, ![64, 512, 1024]⟩ : Shape).Idx → EReal) (A : (⟨3, ![64, 1024, 2048]⟩ : Shape).Idx → EReal)
    (B : (⟨3, ![64, 2048, 1024]⟩ : Shape).Idx → EReal) (e : Fin 64) (r : Fin 512) (n : Fin 1024) : EReal :=
  ∑ f : Fin 2048, gelu (∑ d : Fin 1024, X (ix3 e r d) * A (ix3 e d f)) * B (ix3 e f n)

/-- The same as one array over `[64, 512, 1024]`. -/
def ffn (X : (⟨3, ![64, 512, 1024]⟩ : Shape).Idx → EReal) (A : (⟨3, ![64, 1024, 2048]⟩ : Shape).Idx → EReal)
    (B : (⟨3, ![64, 2048, 1024]⟩ : Shape).Idx → EReal) : (⟨3, ![64, 512, 1024]⟩ : Shape).Idx → EReal :=
  fun j => ffnAt X A B (j 0) (j 1) (j 2)

/-- One token tile `x : [1, R, D]` through one expert's matrices `a : [1, D, H]`, `b : [1, H, N]`, at row `p` and
    output feature `q`. -/
def tile {R D H N : Nat} (x : (⟨3, ![1, R, D]⟩ : Shape).Idx → EReal) (a : (⟨3, ![1, D, H]⟩ : Shape).Idx → EReal)
    (b : (⟨3, ![1, H, N]⟩ : Shape).Idx → EReal) (p : Fin R) (q : Fin N) : EReal :=
  ∑ f : Fin H, gelu (∑ d : Fin D, x (ix3 0 p d) * a (ix3 0 d f)) * b (ix3 0 f q)

/-- A `[1, A, B]` vector cast to `[A, B]` reads, at `(p, q)`, the vector at `(0, p, q)`. -/
theorem dropUnit_apply {A B : Nat} {α : Type} (v : (⟨3, ![1, A, B]⟩ : Shape).Idx → α)
    (h : (⟨3, ![1, A, B]⟩ : Shape).ShapeCasts ⟨2, ![A, B]⟩) (p : Fin A) (q : Fin B) :
    shapeCast ⟨2, ![A, B]⟩ v h (ix2 p q) = v (ix3 0 p q) := by
  refine shapeCast_apply v h (ix2 p q) (ix3 0 p q) ?_
  rw [Shape.rowMajor_val_three, Shape.rowMajor_val_two]
  show ((0 : Nat) * A + p.val) * B + q.val = p.val * B + q.val
  rw [Nat.zero_mul, Nat.zero_add]

/-- An `[A, B]` vector cast to `[1, A, B]` reads, at `(u, p, q)`, the vector at `(p, q)`. -/
theorem addUnit_apply {A B : Nat} {α : Type} (v : (⟨2, ![A, B]⟩ : Shape).Idx → α)
    (h : (⟨2, ![A, B]⟩ : Shape).ShapeCasts ⟨3, ![1, A, B]⟩) (u : Fin 1) (p : Fin A) (q : Fin B) :
    shapeCast ⟨3, ![1, A, B]⟩ v h (ix3 u p q) = v (ix2 p q) := by
  refine shapeCast_apply v h (ix3 u p q) (ix2 p q) ?_
  rw [Shape.rowMajor_val_three, Shape.rowMajor_val_two]
  have hu : u.val = 0 := by omega
  show p.val * B + q.val = (u.val * A + p.val) * B + q.val
  rw [hu, Nat.zero_mul, Nat.zero_add]

end Cert.MoeFfn

end
-- ==== Proof.KernelTile.lean ====
/-
  What the kernel body stores, read at an element: the token tile sent through the expert's two matrices.

  The body casts the three loaded blocks' unit axes away, multiplies the token tile by the first matrix into a zero
  accumulator, applies the tanh form of GELU elementwise, multiplies by the second matrix into a zero accumulator and
  casts the unit axis back. On the extended reals the changes of float format are the identity and each product into
  zero is the plain sum over the contracted coordinate, so the stored value at `(u, p, q)` is `MoeFfn.tile` at `(p, q)`.
-/
import proofs.«168447_j9139690406408_1_alg».proof.Proof.Gen.KernelIdeal.Skeleton
import proofs.«168447_j9139690406408_1_alg».proof.Proof.LibRowwise
import proofs.«168447_j9139690406408_1_alg».proof.Proof.Spec

noncomputable section

namespace Cert.KernelIdeal.Tile

open Idealize.ShloMosaic Idealize.ShloMosaic.ValueIdx Cert.KernelIdeal Cert.KernelIdeal.Gen Cert.MoeFfn Cert.Lib.Rowwise

/-- The first product's dimension numbers are the plain `[256, 1024] × [1024, 2048]` ones. -/
theorem dot1_plain : dot_S256x1024_S1024x2048_S256x2048_1_0_0_1_n_n = DotDims.plain 256 1024 2048 :=
  eq_plain _ rfl rfl rfl rfl rfl rfl

/-- The second product's dimension numbers are the plain `[256, 2048] × [2048, 1024]` ones. -/
theorem dot2_plain : dot_S256x2048_S2048x1024_S256x1024_1_0_0_1_n_n = DotDims.plain 256 2048 1024 :=
  eq_plain _ rfl rfl rfl rfl rfl rfl

/-- The stored value at `(u, p, q)`. -/
theorem pay_apply (x0 : Vec Ideal S1x256x1024 .f32) (x1 : Vec Ideal S1x1024x2048 .f32) (x2 : Vec Ideal S1x2048x1024 .f32)
    (u : Fin 1) (p : Fin 256) (q : Fin 1024) :
    k0_pay1 (F := Ideal) x0 x1 x2 (ix3 u p q) = tile x0 x1 x2 p q := by
  unfold k0_pay1 tile
  rw [addUnit_apply, dot2_plain]
  refine (plain_matmul_zero_apply none _ _ p q).trans ?_
  refine Finset.sum_congr rfl fun f _ => ?_
  rw [truncf_apply, truncf_apply, dropUnit_apply]
  refine congrArg (· * x2 (ix3 0 f q)) ?_
  show gelu (matmul (F := Ideal) dot_S256x1024_S1024x2048_S256x2048_1_0_0_1_n_n none _ _ _ (ix2 p f)) = _
  refine congrArg gelu ?_
  rw [dot1_plain]
  refine (plain_matmul_zero_apply none _ _ p f).trans ?_
  refine Finset.sum_congr rfl fun d _ => ?_
  rw [truncf_apply, truncf_apply, dropUnit_apply, dropUnit_apply]

end Cert.KernelIdeal.Tile

end
-- ==== Proof.KernelValue.lean ====
/-
  The kernel's run, read: after it the result array holds the expert block of the grouped tokens, regrouped to rows.

  The grid has one point per (expert `e`, half `h` of its 512-row chunk). At that point the output block is rows
  `256·h … 256·h + 255` of chunk `e`, the token block is the same rows, and the two weight blocks are expert `e`'s whole
  matrices. What the point writes back is therefore its block of ONE array, `MoeFfn.ffn` of the grouped tokens and the
  two weight stacks; the 128 blocks cover `[64, 512, 1024]`, so that array is what the call leaves. The grouped tokens
  are the first reshape of the token argument, and the program's result the second reshape of the call's.
-/
import proofs.«168447_j9139690406408_1_alg».proof.Proof.Gen.KernelIdeal.Frame
import proofs.«168447_j9139690406408_1_alg».proof.Proof.KernelTile
import Idealize.ShloMosaic.Lib.Pipeline.Value
import Idealize.ShloMosaic.Lib.StableHlo.Run

set_option maxRecDepth 16384

noncomputable section

namespace Cert.KernelIdeal.Ffn

open Idealize.ShloMosaic Idealize.ShloMosaic.TcCoe Idealize.ShloMosaic.ValueIdx Idealize.SL.Sem
open Cert.KernelIdeal Cert.KernelIdeal.Gen Cert.MoeFfn
open Idealize.ShloMosaic.Pipeline (Dat)

variable (m : (ℓ : Loc nD τ sig) → Buf (Elt Ideal) ℓ) (ρ : Dev nD → PrngReg)

theorem hz : (![0, 0, 0] : Fin 3 → Nat) = fun _ => 0 := funext fun a => by fin_cases a <;> rfl

/-- The array the call leaves: the expert block of the arrays the call finds. -/
abbrev ffnV (c : Dev nD) : S64x512x1024.Idx → EReal :=
  ffn (V m c main_v0) (V m c main_arg1) (V m c main_arg2)

/-- The block indices at a grid point: tokens and output move together, expert first and half second; each weight block
    is the point's expert's. -/
theorem idx_facts : ∀ t : Fin cfg0.N,
    win0_0.index t (0 : Fin 3) = win0_3.index t (0 : Fin 3) ∧ win0_0.index t (1 : Fin 3) = win0_3.index t (1 : Fin 3)
    ∧ win0_0.index t (2 : Fin 3) = 0
    ∧ win0_1.index t (0 : Fin 3) = win0_3.index t (0 : Fin 3) ∧ win0_1.index t (1 : Fin 3) = 0 ∧ win0_1.index t (2 : Fin 3) = 0
    ∧ win0_2.index t (0 : Fin 3) = win0_3.index t (0 : Fin 3) ∧ win0_2.index t (1 : Fin 3) = 0 ∧ win0_2.index t (2 : Fin 3) = 0
    ∧ win0_3.index t (2 : Fin 3) = 0 ∧ win0_3.index t (0 : Fin 3) < 64 ∧ win0_3.index t (1 : Fin 3) < 2 :=
  (by decide +kernel : ∀ t : Fin grid0.N, _)

/-- Every (expert, half) is some point's output block. -/
theorem idx_onto : ∀ (q0 : Fin 64) (q1 : Fin 2), ∃ t : Fin cfg0.N, win0_3.index t = ![q0.val, q1.val, 0] :=
  (by decide +kernel : ∀ (q0 : Fin 64) (q1 : Fin 2), ∃ t : Fin grid0.N, win0_3.index t = ![q0.val, q1.val, 0])

/-- What point `t` writes back is its block of the expert block of the arrays the call finds. -/
theorem flushed_eq (c : Dev nD) (t : Fin cfg0.N) :
    (dats m 0 c).flushed 3 t = ((cfg0.win 3).blk t).view.read (Elt Ideal) (ffnV m c) := by
  show (cfg0.win 3).cut (grid0.coords t) ((dats m 0 c).after 3 t) = _
  rw [after0_3]
  unfold out0_3
  rw [View.canon_unit_zero hz]
  simp only [View.ld_unit_zero (S := S1x256x1024) hz, View.ld_unit_zero (S := S1x1024x2048) hz, View.ld_unit_zero (S := S1x2048x1024) hz]
  obtain ⟨e0, e1, e2, e3, e4, e5, e6, e7, e8, e9, e10, e11⟩ := idx_facts t
  funext j
  obtain ⟨u, p, q, rfl⟩ : ∃ (u : Fin 1) (p : Fin 256) (q : Fin 1024), j = ix3 u p q := ⟨j 0, j 1, j 2, eq_ix3 j⟩
  have hu : u.val = 0 := by omega
  refine (Tile.pay_apply (iblk m c 0 t) (iblk m c 1 t) (iblk m c 2 t) u p q).trans ?_
  show tile (iblk m c 0 t) (iblk m c 1 t) (iblk m c 2 t) p q
    = ffnAt (V m c main_v0) (V m c main_arg1) (V m c main_arg2) ((((cfg0.win 3).blk t).view.emb (ix3 u p q)) 0)
        ((((cfg0.win 3).blk t).view.emb (ix3 u p q)) 1) ((((cfg0.win 3).blk t).view.emb (ix3 u p q)) 2)
  unfold tile ffnAt
  refine Finset.sum_congr rfl fun f _ => ?_
  have hx : ∀ d : Fin 1024, iblk m c 0 t (ix3 0 p d)
      = V m c main_v0 (ix3 ((((cfg0.win 3).blk t).view.emb (ix3 u p q)) 0) ((((cfg0.win 3).blk t).view.emb (ix3 u p q)) 1) d) := by
    intro d
    show V m c main_v0 (((cfg0.win 0).blk t).view.emb (ix3 0 p d)) = _
    refine congrArg (V m c main_v0) (funext fun a => Fin.ext ?_)
    match a with
    | ⟨0, _⟩ => show win0_0.index t (0 : Fin 3) * 1 + 1 * 0 = win0_3.index t (0 : Fin 3) * 1 + 1 * u.val; omega
    | ⟨1, _⟩ => show win0_0.index t (1 : Fin 3) * 256 + 1 * p.val = win0_3.index t (1 : Fin 3) * 256 + 1 * p.val; omega
    | ⟨2, _⟩ => show win0_0.index t (2 : Fin 3) * 1024 + 1 * d.val = d.val; omega
  have ha : ∀ d : Fin 1024, iblk m c 1 t (ix3 0 d f)
      = V m c main_arg1 (ix3 ((((cfg0.win 3).blk t).view.emb (ix3 u p q)) 0) d f) := by
    intro d
    show V m c main_arg1 (((cfg0.win 1).blk t).view.emb (ix3 0 d f)) = _
    refine congrArg (V m c main_arg1) (funext fun a => Fin.ext ?_)
    match a with
    | ⟨0, _⟩ => show win0_1.index t (0 : Fin 3) * 1 + 1 * 0 = win0_3.index t (0 : Fin 3) * 1 + 1 * u.val; omega
    | ⟨1, _⟩ => show win0_1.index t (1 : Fin 3) * 1024 + 1 * d.val = d.val; omega
    | ⟨2, _⟩ => show win0_1.index t (2 : Fin 3) * 2048 + 1 * f.val = f.val; omega
  have hb : iblk m c 2 t (ix3 0 f q)
      = V m c main_arg2 (ix3 ((((cfg0.win 3).blk t).view.emb (ix3 u p q)) 0) f ((((cfg0.win 3).blk t).view.emb (ix3 u p q)) 2)) := by
    show V m c main_arg2 (((cfg0.win 2).blk t).view.emb (ix3 0 f q)) = _
    refine congrArg (V m c main_arg2) (funext fun a => Fin.ext ?_)
    match a with
    | ⟨0, _⟩ => show win0_2.index t (0 : Fin 3) * 1 + 1 * 0 = win0_3.index t (0 : Fin 3) * 1 + 1 * u.val; omega
    | ⟨1, _⟩ => show win0_2.index t (1 : Fin 3) * 2048 + 1 * f.val = f.val; omega
    | ⟨2, _⟩ => show win0_2.index t (2 : Fin 3) * 1024 + 1 * q.val = win0_3.index t (2 : Fin 3) * 1024 + 1 * q.val; omega
  rw [hb]
  refine congrArg (fun z => gelu z * _) ?_
  exact Finset.sum_congr rfl fun d _ => by rw [hx d, ha d]

/-- An index of the array is in point `t`'s output block iff each coordinate is in the block's range on its axis. -/
theorem mem_blk (t : Fin cfg0.N) (i : S64x512x1024.Idx) :
    i ∈ ((cfg0.win 3).blk t).view.set ↔ ∀ a : Fin 3, win0_3.index t a * S1x256x1024.size a ≤ (i a).val ∧ (i a).val < win0_3.index t a * S1x256x1024.size a + S1x256x1024.size a := by
  show i ∈ ((View.whole main_v1).slice (win0_3.rect t)).set ↔ _
  rw [View.set_slice_whole, Rect.mem_set_unit]
  exact Iff.rfl

/-- The output blocks cover the array: row `r` of chunk `e` is in the block of the point (e, r / 256). -/
theorem cover (i : S64x512x1024.Idx) : ∃ t : Fin cfg0.N, (cfg0.win 3).flush t = true ∧ i ∈ ((cfg0.win 3).blk t).view.set := by
  have hi0 : (i 0).val < 64 := (i 0).isLt
  have hi1 : (i 1).val < 512 := (i 1).isLt
  have hi2 : (i 2).val < 1024 := (i 2).isLt
  obtain ⟨t, ht⟩ := idx_onto ⟨(i 0).val, hi0⟩ ⟨(i 1).val / 256, by omega⟩
  have q0 : win0_3.index t (0 : Fin 3) = (i 0).val := congrFun ht 0
  have q1 : win0_3.index t (1 : Fin 3) = (i 1).val / 256 := congrFun ht 1
  have q2 : win0_3.index t (2 : Fin 3) = 0 := congrFun ht 2
  refine ⟨t, flush0_3 t, ?_⟩
  rw [mem_blk]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 256 ≤ (i 1).val ∧ (i 1).val < win0_3.index t (1 : Fin 3) * 256 + 256; omega
  | ⟨2, _⟩ => show win0_3.index t (2 : Fin 3) * 1024 ≤ (i 2).val ∧ (i 2).val < win0_3.index t (2 : Fin 3) * 1024 + 1024; omega

/-- The call's result array after the run. -/
theorem final (c : Dev nD) : (dats m 0 c).arrAt 3 cfg0.N = ffnV m c :=
  (dats m 0 c).arrAt_eq_of_cover 3 (ffnV m c) (fun t _ => flushed_eq m c t) cover

/-- The grouped tokens the call finds are the reshape of the token argument. -/
theorem V_main_v0 (c : Dev nD) :
    (V m c main_v0 : S64x512x1024.Idx → EReal)
      = shapeCast S64x512x1024 (m ((c : Thread nD τ).loc main_arg0)) shapeCasts_S32768x1024_S64x512x1024 := by
  show StableHlo.after hostOps0 (fun b => m (c, b)) (Proc.devRef .tc main_v0) = _
  after_results
  rfl

/-- The program's result after the lines that follow the call: the reshape of the call's result array. -/
theorem tail_main_v2 (c : Dev nD) :
    (Pipeline.afterTail₀ cfgs (dats m) 0 (V0 m) [hostOps1] c main_v2 : S32768x1024.Idx → EReal)
      = shapeCast S32768x1024 (ffnV m c) shapeCasts_S64x512x1024_S32768x1024 := by
  unfold Pipeline.afterTail₀
  show StableHlo.after hostOps1 _ (Proc.devRef .tc main_v2) = _
  after_results
  rw [Pipeline.withArrays_arr spec0 launch0.win.arr_inj c _ _ 3, final]
  rfl

/-- THE RUN: every weakly fair execution ends with the result at the regrouped expert block of the regrouped tokens
    and the two weight stacks, the three arguments unchanged. -/
theorem run : θ_run defs (onTc (τ := τ) (main (F := Ideal))) ⟨m, fun _ => 0, ρ⟩ fun r => ∀ c : Dev nD,
      r.2.mem ((c.tc : Thread nD τ).loc main_v2)
        = shapeCast S32768x1024 (ffn (shapeCast S64x512x1024 (m ((c.tc : Thread nD τ).loc main_arg0)) shapeCasts_S32768x1024_S64x512x1024)
            (m ((c.tc : Thread nD τ).loc main_arg1)) (m ((c.tc : Thread nD τ).loc main_arg2))) shapeCasts_S64x512x1024_S32768x1024
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨by
      refine ((h c).2 main_v2 (Pipeline.mem_restRefs_of main_v2 (by decide) (by decide))).trans ?_
      rw [tail_main_v2]
      unfold ffnV
      rw [V_main_v0, V_main_arg1, V_main_arg2],
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩)
    (run_main m ρ)

end Cert.KernelIdeal.Ffn

end
-- ==== Proof.RefValue.lean ====
/-
  The reference computes the expert block on the grouped tokens.

  Between its two reshapes the reference is: a batched product of the grouped tokens `X` with the first weight stack, the
  tanh form of GELU with the cube grouped `(h · h) · h`, and a batched product with the second weight stack. At an index
  `(e, r, n)` each batched product is the sum over its one contracted coordinate, so the value there is
  `∑ f, gelu (∑ d, X (e, r, d) · A (e, d, f)) · B (e, f, n)`: `MoeFfn.ffn`, the two groupings of the cube being equal.
-/
import proofs.«168447_j9139690406408_1_alg».proof.Proof.Gen.ReferenceIdeal.Read
import proofs.«168447_j9139690406408_1_alg».proof.Proof.Spec

noncomputable section

namespace Cert.ReferenceIdeal.Ffn

open Idealize.ShloMosaic Idealize.ShloMosaic.ValueIdx Cert.ReferenceIdeal Cert.ReferenceIdeal.Read Cert.MoeFfn

/-- The hidden pre-activation at `(e, r, f)`: the grouped tokens' row against column `f` of expert `e`'s first matrix. -/
theorem hidden_apply (x0 : (⟨S32768x1024, .f32⟩ : BufTy).Contents (Elt Ideal)) (x1 : (⟨S64x1024x2048, .f32⟩ : BufTy).Contents (Elt Ideal))
    (e : Fin 64) (r : Fin 512) (f : Fin 2048) :
    val_main_v1 (F := Ideal) x0 x1 (ix3 e r f) = ∑ d : Fin 1024, val_main_v0 (F := Ideal) x0 (ix3 e r d) * x1 (ix3 e d f) := by
  rw [val_main_v1_apply]
  refine Finset.sum_congr rfl fun d _ => ?_
  have el : lidx_main_v1 (ix3 e r f) d = ix3 e r d :=
    funext fun a => Fin.ext (by match a with | ⟨0, _⟩ => rfl | ⟨1, _⟩ => rfl | ⟨2, _⟩ => rfl)
  have er : ridx_main_v1 (ix3 e r f) d = ix3 e d f :=
    funext fun a => Fin.ext (by match a with | ⟨0, _⟩ => rfl | ⟨1, _⟩ => rfl | ⟨2, _⟩ => rfl)
  rw [el, er]

/-- The activation at `(e, r, f)` is GELU of the hidden pre-activation. -/
theorem act_apply (x0 : (⟨S32768x1024, .f32⟩ : BufTy).Contents (Elt Ideal)) (x1 : (⟨S64x1024x2048, .f32⟩ : BufTy).Contents (Elt Ideal))
    (j : S64x512x2048.Idx) :
    val_main_v14 (F := Ideal) x0 x1 j = gelu (val_main_v1 (F := Ideal) x0 x1 j) := by
  rw [val_main_v14_apply, val_main_v13_apply, val_main_v12_apply, val_main_cst_2_apply, val_main_v11_apply,
    val_main_v10_apply, val_main_cst_1_apply, val_main_v9_apply, val_main_v8_apply, val_main_v7_apply,
    val_main_cst_0_apply, val_main_v6_apply, val_main_v5_apply, val_main_v4_apply, val_main_cst_apply,
    val_main_v3_apply, val_main_v2_apply]
  exact gelu_cube_left _

/-- Between the two reshapes the reference is the expert block of the grouped tokens. -/
theorem ffn_eq (x0 : (⟨S32768x1024, .f32⟩ : BufTy).Contents (Elt Ideal)) (x1 : (⟨S64x1024x2048, .f32⟩ : BufTy).Contents (Elt Ideal))
    (x2 : (⟨S64x2048x1024, .f32⟩ : BufTy).Contents (Elt Ideal)) :
    val_main_v15 (F := Ideal) x0 x1 x2 = ffn (val_main_v0 (F := Ideal) x0) x1 x2 := by
  funext i
  obtain ⟨e, r, n, rfl⟩ : ∃ (e : Fin 64) (r : Fin 512) (n : Fin 1024), i = ix3 e r n := ⟨i 0, i 1, i 2, eq_ix3 i⟩
  rw [val_main_v15_apply]
  show _ = ffnAt (val_main_v0 (F := Ideal) x0) x1 x2 e r n
  unfold ffnAt
  refine Finset.sum_congr rfl fun f _ => ?_
  have el : lidx_main_v15 (ix3 e r n) f = ix3 e r f :=
    funext fun a => Fin.ext (by match a with | ⟨0, _⟩ => rfl | ⟨1, _⟩ => rfl | ⟨2, _⟩ => rfl)
  have er : ridx_main_v15 (ix3 e r n) f = ix3 e f n :=
    funext fun a => Fin.ext (by match a with | ⟨0, _⟩ => rfl | ⟨1, _⟩ => rfl | ⟨2, _⟩ => rfl)
  rw [el, er, act_apply, hidden_apply]

end Cert.ReferenceIdeal.Ffn

end
-- ==== Proof.lean ====
/-
  A mixture-of-experts feed-forward layer with equal-size dispatch, against its reference: both regroup the
  `[32768, 1024]` tokens into 64 chunks of 512 rows, send chunk `e` through expert `e` — a `[1024 → 2048]` linear map,
  the tanh form of GELU, a `[2048 → 1024]` linear map — and regroup the result to `[32768, 1024]` rows.

  On the extended reals both programs compute, between the same two reshapes, the array

      (e, r, n) ↦ ∑ f, gelu (∑ d, X (e, r, d) · A (e, d, f)) · B (e, f, n)

  of the regrouped tokens `X` and the two weight stacks `A`, `B`. The kernel does it tile by tile (two 256-row tiles per
  expert, every tile the same expression of its own rows and its expert's matrices, the products into zero
  accumulators plain sums and the narrowings to a shorter float format the identity), the reference by two batched
  products around the activation; they differ only in how the cube inside GELU is grouped, `h · (h · h)` against
  `(h · h) · h`, which commutativity of the product settles. No input needs to be finite for that.

  The three frames: the two kernels' are the generated frame theorems, the reference's is its generated run with the
  result forgotten. Nothing was rewritten when the kernel was idealized, so that conjunct is trivial.
-/
import proofs.«168447_j9139690406408_1_alg».proof.Defs
import proofs.«168447_j9139690406408_1_alg».proof.Proof.Gen.Kernel
import proofs.«168447_j9139690406408_1_alg».proof.Proof.Gen.Kernel.Skeleton
import proofs.«168447_j9139690406408_1_alg».proof.Proof.Gen.Kernel.Launch
import proofs.«168447_j9139690406408_1_alg».proof.Proof.Gen.Kernel.Points
import proofs.«168447_j9139690406408_1_alg».proof.Proof.Gen.Kernel.Frame
import proofs.«168447_j9139690406408_1_alg».proof.Proof.Gen.KernelIdeal
import proofs.«168447_j9139690406408_1_alg».proof.Proof.Gen.KernelIdeal.Skeleton
import proofs.«168447_j9139690406408_1_alg».proof.Proof.Gen.KernelIdeal.Launch
import proofs.«168447_j9139690406408_1_alg».proof.Proof.Gen.KernelIdeal.Points
import proofs.«168447_j9139690406408_1_alg».proof.Proof.Gen.KernelIdeal.Frame
import proofs.«168447_j9139690406408_1_alg».proof.Proof.Gen.ReferenceIdeal
import proofs.«168447_j9139690406408_1_alg».proof.Proof.Gen.Pre_finite_inputs
import proofs.«168447_j9139690406408_1_alg».proof.Proof.Gen.ReferenceIdeal.Run
import proofs.«168447_j9139690406408_1_alg».proof.Proof.Gen.ReferenceIdeal.Read
import proofs.«168447_j9139690406408_1_alg».proof.Proof.KernelValue
import proofs.«168447_j9139690406408_1_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- Both runs end with the result at the regrouped expert block of the regrouped tokens: the kernel's by its run read
    tile by tile, the reference's by its run read operation by operation, from arguments that agree. -/
theorem algebraic : Cert.algebraic_KernelIdeal_ReferenceIdeal := by
  intro m ρ m' ρ' _ hagree
  refine ⟨_, Cert.KernelIdeal.Ffn.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v16_eq]
  unfold Cert.ReferenceIdeal.Read.val_main_v16
  rw [Cert.ReferenceIdeal.Ffn.ffn_eq, (hagree c).1, (hagree c).2.1, (hagree c).2.2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
